-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S256x8192 : Shape := ⟨2, ![256, 8192]⟩
abbrev S8192 : Shape := ⟨1, ![8192]⟩
abbrev S8192x8192 : Shape := ⟨2, ![8192, 8192]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S256x8192 : S_.BroadcastsInDim S256x8192 (![] : Fin 0 → Fin S256x8192.rank)
  reducesTo_S256x8192_S_d0_1 : S256x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  main_v18

def fn {F : FTy → Type} [FloatOps F] (main_arg0 : FVec F S64x8192 .f32) (main_arg1 : FVec F S256x8192 .f32) (main_arg2 : FVec F S256x8192 .f32) (main_arg3 : FVec F S8192 .f32) (main_arg4 : IVec S8192x8192 32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S256x8192 .f32 := Host.absf main_arg1
  let main_cst_0 : FVec F S_ .f32 := constant S_ .f32 0x7F800000#32
  let main_v5 : FVec F S256x8192 .f32 := broadcastInDim S256x8192 ![] bcast_S_S256x8192 main_cst_0
  let main_v6 : IVec S256x8192 1 := cmpf .olt main_v4 main_v5
  let main_c_1 : IVec S_ 1 := constantI S_ 1 1#1
  let main_v7 : IVec S_ 1 := (fun x v => Host.reduce IntOp.andi x v reducesTo_S256x8192_S_d0_1 h_S_) main_v6 main_c_1
  let main_v8 : IVec S_ 1 := andi main_v3 main_v7
  let main_v9 : FVec F S256x8192 .f32 := Host.absf main_arg2
  let main_cst_2 : FVec F S_ .f32 := constant S_ .f32 0x7F800000#32
  let main_v10 : FVec F S256x8192 .f32 := broadcastInDim S256x8192 ![] bcast_S_S256x8192 main_cst_2
  let main_v11 : IVec S256x8192 1 := cmpf .olt main_v9 main_v10
  let main_c_3 : IVec S_ 1 := constantI S_ 1 1#1
  let main_v12 : IVec S_ 1 := (fun x v => Host.reduce IntOp.andi x v reducesTo_S256x8192_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_v13 main_v16
-- ==== Kernel.lean ====
abbrev S64x8192 : Shape := ⟨2, ![64, 8192]⟩
abbrev S256x8192 : Shape := ⟨2, ![256, 8192]⟩
abbrev S8192 : Shape := ⟨1, ![8192]⟩
abbrev S8192x8192 : Shape := ⟨2, ![8192, 8192]⟩
abbrev S1x8192 : Shape := ⟨2, ![1, 8192]⟩
abbrev S64x512 : Shape := ⟨2, ![64, 512]⟩
abbrev S512x1024 : Shape := ⟨2, ![512, 1024]⟩
abbrev S16x1024 : Shape := ⟨2, ![16, 1024]⟩
abbrev S1x1024 : Shape := ⟨2, ![1, 1024]⟩
abbrev S64x1024 : Shape := ⟨2, ![64, 1024]⟩
abbrev S16x1x1024 : Shape := ⟨3, ![16, 1, 1024]⟩
abbrev S16x32x1024 : Shape := ⟨3, ![16, 32, 1024]⟩

abbrev nBuf : Space → Nat
  | .hbm => 7
  | .vmem => 13
  | .smem => 0
  | _ => 0

abbrev bufTy : (tb : Table) → Fin (tcTables nBuf tb) → BufTy
  | .hbm, ⟨0, _⟩ => ⟨S64x8192, .f32⟩
  | .hbm, ⟨1, _⟩ => ⟨S256x8192, .f32⟩
  | .hbm, ⟨2, _⟩ => ⟨S256x8192, .f32⟩
  | .hbm, ⟨3, _⟩ => ⟨S8192, .f32⟩
  | .hbm, ⟨4, _⟩ => ⟨S8192x8192, .i32⟩
  | .hbm, ⟨5, _⟩ => ⟨S1x8192, .f32⟩
  | .hbm, ⟨6, _⟩ => ⟨S64x8192, .f32⟩
  | .local _ .vmem, ⟨0, _⟩ => ⟨S64x512, .f32⟩
  | .local _ .vmem, ⟨1, _⟩ => ⟨S64x512, .f32⟩
  | .local _ .vmem, ⟨2, _⟩ => ⟨S512x1024, .i32⟩
  | .local _ .vmem, ⟨3, _⟩ => ⟨S512x1024, .i32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S1x1024, .f32⟩
  | .local _ .vmem, ⟨9, _⟩ => ⟨S1x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_12 : BitVec 32 := 0#32
  let v28 : BitVec 1 := Scalar.cmpi .ne v27 c0_i32_12
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8192_S1x8192 : S8192.ShapeCasts S1x8192
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S512x1024_S512x1024_0_0 : ∀ a, (![0, 0] : Fin 2 → Nat) a + S512x1024.size a ≤ S512x1024.size a
  h_S512x1024 : 0 < S512x1024.numel
  inb_S16x1024_S16x1024_0_0 : ∀ a, (![0, 0] : Fin 2 → Nat) a + S16x1024.size a ≤ S16x1024.size a
  h_S16x1024 : 0 < S16x1024.numel
  shapeCasts_S16x1024_S16x1x1024 : S16x1024.ShapeCasts S16x1x1024
  shapeCasts_S16x1x1024_S16x1x1024 : S16x1x1024.ShapeCasts S16x1x1024
  broadcasts_S16x1x1024_S16x32x1024 : S16x1x1024.Broadcasts S16x32x1024
  shapeCasts_S16x32x1024_S512x1024 : S16x32x1024.ShapeCasts S512x1024
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  dot_S64x512_S512x1024_S64x1024_1_0_0_1_n_n_wf : DotDims.WF S64x512 S512x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S64x8192.size a
  hwx0_0 : ∀ i : grid0.Coords, EltTy.bits .f32 = 32 ∨ (Rect.block (s := S64x8192) S64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x8192.size a
  hwx0_1 : ∀ i : grid0.Coords, EltTy.bits .i32 = 32 ∨ (Rect.block (s := S8192x8192) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S256x8192.size a
  hwx0_2 : ∀ i : grid0.Coords, EltTy.bits .f32 = 32 ∨ (Rect.block (s := S256x8192) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S256x8192.size a
  hwx0_3 : ∀ i : grid0.Coords, EltTy.bits .f32 = 32 ∨ (Rect.block (s := S256x8192) S16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S64x8192.size a
  hwx0_5 : ∀ i : grid0.Coords, EltTy.bits .f32 = 32 ∨ (Rect.block (s := S64x8192) S64x1024.size (cc0_transform_5 i) (hinb0_5 i)).WholeWords (EltTy.packing .f32)

variable [Facts₀]

def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf

abbrev win0_0 : Pipeline.Window sig grid0 :=
  Pipeline.Window.ofSpec (Memref.whole main_arg0) S64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S64x8192 : Shape := ⟨2, ![64, 8192]⟩
abbrev S256x8192 : Shape := ⟨2, ![256, 8192]⟩
abbrev S8192 : Shape := ⟨1, ![8192]⟩
abbrev S8192x8192 : Shape := ⟨2, ![8192, 8192]⟩
abbrev S256x32x8192 : Shape := ⟨3, ![256, 32, 8192]⟩
abbrev S1x8192 : Shape := ⟨2, ![1, 8192]⟩

abbrev nBuf : Space → Nat
  | .hbm => 16
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S256x8192, .f32⟩
  | .hbm, ⟨2, _⟩ => ⟨S256x8192, .f32⟩
  | .hbm, ⟨3, _⟩ => ⟨S8192, .f32⟩
  | .hbm, ⟨4, _⟩ => ⟨S8192x8192, .i32⟩
  | .hbm, ⟨5, _⟩ => ⟨S256x32x8192, .f32⟩
  | .hbm, ⟨6, _⟩ => ⟨S8192x8192, .f32⟩
  | .hbm, ⟨7, _⟩ => ⟨S256x32x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S64x8192, .f32⟩
  | .hbm, ⟨13, _⟩ => ⟨S1x8192, .f32⟩
  | .hbm, ⟨14, _⟩ => ⟨S64x8192, .f32⟩
  | .hbm, ⟨15, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S256x8192_S256x32x8192_0_2 : S256x8192.BroadcastsInDim S256x32x8192 (![0, 2] : Fin 2 → Fin S256x32x8192.rank)
  shapeCasts_S256x32x8192_S8192x8192 : S256x32x8192.ShapeCasts S8192x8192
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  dot_S64x8192_S8192x8192_S64x8192_1_0_0_1_n_n_wf : DotDims.WF S64x8192 S8192x8192 S64x8192 [1] [0] [0] [1] [] []

variable [Facts₀]

def dot_S64x8192_S8192x8192_S64x8192_1_0_0_1_n_n : DotDims S64x8192 S8192x8192 S64x8192 where
  lhsContracting := [1]
  rhsContracting := [0]
  lhsNonContracting := [0]
  rhsNonContracting := [1]
  lhsBatch := []
  rhsBatch := []
  wf := dot_S64x8192_S8192x8192_S64x8192_1_0_0_1_n_n_wf

class Facts : Prop extends Facts₀ where

variable [Facts]
-- ==== Proof.Cases.lean ====
/-
  What one grid point leaves behind, case by case.

  The kernel walks the grid (column tile, row tile) with the row tile innermost and keeps a `[64, 1024]` accumulator
  across the 16 row tiles of a column tile. At every point it adds to the accumulator the product of the activation
  block with the dequantized weight block. At the first row tile the accumulator is first set to zero; at the last row
  tile the accumulator plus the bias row is what the output block receives.

  Here each case's stores, read back, are identified with those pure terms, at any float instance.
-/
import proofs.«149741_j47296179864030_1_alg».proof.Proof.Gen.KernelIdeal.Frame
import Idealize.ShloMosaic.Lib.Pipeline.Value
import Idealize.ShloMosaic.Lib.Tactic

noncomputable section

open Idealize.ShloMosaic Idealize.ShloMosaic.TcCoe Idealize.ShloMosaic.Tactic Idealize.SL.Sem

namespace Cert.KernelIdeal.Cases

open Cert.KernelIdeal Cert.KernelIdeal.Gen

variable {F : FTy → Type} [FloatOps F]

/-- The origin of a rank-2 block. -/
theorem origin2 : (![0, 0] : Fin 2 → Nat) = fun _ => 0 := funext fun a => by fin_cases a <;> rfl

/-- First row tile: the accumulator is zeroed, read back, and left at `0 + x·deq`. -/
theorem acc_first (c : Dev nD) (i : grid0.Coords) (a2 : Memref sig .tc .vmem S64x512 .f32) (h2 : a2.IsWhole)
    (a3 : Memref sig .tc .vmem S512x1024 .i32) (h3 : a3.IsWhole) (a4 : Memref sig .tc .vmem S16x1024 .f32) (h4 : a4.IsWhole)
    (a5 : Memref sig .tc .vmem S16x1024 .f32) (h5 : a5.IsWhole) (a6 : Memref sig .tc .vmem S1x1024 .f32) (h6 : a6.IsWhole)
    (a7 : Memref sig .tc .vmem S64x1024 .f32) (h7 : a7.IsWhole) (a8 : Memref sig .tc .vmem S64x1024 .f32) (h8 : a8.IsWhole)
    (hc0 : cond0_0 i) (hc1 : ¬cond0_1 i)
    (x0 : Vec F S64x512 .f32) (x1 : Vec F S512x1024 .i32) (x2 : Vec F S16x1024 .f32) (x3 : Vec F S16x1024 .f32) (x4 : Vec F S1x1024 .f32) :
    sout0_A_0 c i a2 h2 a3 h3 a4 h4 a5 h5 a6 h6 a7 h7 a8 h8 hc0 hc1 x0 x1 x2 x3 x4 = k0_pay2 x1 x2 x3 x0 (k0_pay1 (F := F)) := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S64x1024) origin2, View.readCov_unit_zero (S := S64x1024) _ origin2]
  simp only [View.readAt_eq_ld, h2.read_unread, h3.read_unread, h4.read_unread, h5.read_unread,
    View.ld_unit_zero (S := S64x512) origin2, View.ld_unit_zero (S := S512x1024) origin2,
    View.ld_unit_zero (S := S16x1024) origin2]

/-- A middle row tile: the accumulator the point before left, plus this tile's `x·deq`. -/
theorem acc_middle (c : Dev nD) (i : grid0.Coords) (a2 : Memref sig .tc .vmem S64x512 .f32) (h2 : a2.IsWhole)
    (a3 : Memref sig .tc .vmem S512x1024 .i32) (h3 : a3.IsWhole) (a4 : Memref sig .tc .vmem S16x1024 .f32) (h4 : a4.IsWhole)
    (a5 : Memref sig .tc .vmem S16x1024 .f32) (h5 : a5.IsWhole) (a6 : Memref sig .tc .vmem S1x1024 .f32) (h6 : a6.IsWhole)
    (a7 : Memref sig .tc .vmem S64x1024 .f32) (h7 : a7.IsWhole) (a8 : Memref sig .tc .vmem S64x1024 .f32) (h8 : a8.IsWhole)
    (hc0 : ¬cond0_0 i) (hc1 : ¬cond0_1 i)
    (x0 : Vec F S64x512 .f32) (x1 : Vec F S512x1024 .i32) (x2 : Vec F S16x1024 .f32) (x3 : Vec F S16x1024 .f32) (x4 : Vec F S1x1024 .f32) (xs0 : Vec F S64x1024 .f32) :
    sout0_B_0 c i a2 h2 a3 h3 a4 h4 a5 h5 a6 h6 a7 h7 a8 h8 hc0 hc1 x0 x1 x2 x3 x4 xs0 = k0_pay2 x1 x2 x3 x0 xs0 := by
  unfold sout0_B_0
  rw [View.read_writes_eq_canon _ _ _ (scover0_B_0 c i a2 h2 a3 h3 a4 h4 a5 h5 a6 h6 a7 h7 a8 h8 hc0 hc1 x0 x1 x2 x3 x4 xs0)]
  unfold kernelRun0_B
  dsimp only
  sl_unfold_words
  rw [View.canon_unit_zero origin2]
  simp only [View.readAt_eq_ld, h2.read_unread, h3.read_unread, h4.read_unread, h5.read_unread, h8.read_unread,
    View.ld_unit_zero (S := S64x512) origin2, View.ld_unit_zero (S := S512x1024) origin2,
    View.ld_unit_zero (S := S16x1024) origin2, View.ld_unit_zero (S := S64x1024) origin2]

/-- The last row tile leaves the accumulator as a middle one does, -/
theorem acc_last (c : Dev nD) (i : grid0.Coords) (a2 : Memref sig .tc .vmem S64x512 .f32) (h2 : a2.IsWhole)
    (a3 : Memref sig .tc .vmem S512x1024 .i32) (h3 : a3.IsWhole) (a4 : Memref sig .tc .vmem S16x1024 .f32) (h4 : a4.IsWhole)
    (a5 : Memref sig .tc .vmem S16x1024 .f32) (h5 : a5.IsWhole) (a6 : Memref sig .tc .vmem S1x1024 .f32) (h6 : a6.IsWhole)
    (a7 : Memref sig .tc .vmem S64x1024 .f32) (h7 : a7.IsWhole) (a8 : Memref sig .tc .vmem S64x1024 .f32) (h8 : a8.IsWhole)
    (hc0 : ¬cond0_0 i) (hc1 : cond0_1 i)
    (x0 : Vec F S64x512 .f32) (x1 : Vec F S512x1024 .i32) (x2 : Vec F S16x1024 .f32) (x3 : Vec F S16x1024 .f32) (x4 : Vec F S1x1024 .f32) (xs0 : Vec F S64x1024 .f32) :
    sout0_C_0 c i a2 h2 a3 h3 a4 h4 a5 h5 a6 h6 a7 h7 a8 h8 hc0 hc1 x0 x1 x2 x3 x4 xs0 = k0_pay2 x1 x2 x3 x0 xs0 := by
  unfold sout0_C_0
  rw [View.read_writes_eq_canon _ _ _ (scover0_C_0 c i a2 h2 a3 h3 a4 h4 a5 h5 a6 h6 a7 h7 a8 h8 hc0 hc1 x0 x1 x2 x3 x4 xs0)]
  unfold kernelRun0_C
  dsimp only
  sl_unfold_words
  rw [View.canon_unit_zero origin2]
  simp only [View.readAt_eq_ld, h2.read_unread, h3.read_unread, h4.read_unread, h5.read_unread, h8.read_unread,
    View.ld_unit_zero (S := S64x512) origin2, View.ld_unit_zero (S := S512x1024) origin2,
    View.ld_unit_zero (S := S16x1024) origin2, View.ld_unit_zero (S := S64x1024) origin2]

/-- and stores into the output block that accumulator plus the bias row. -/
theorem out_last (c : Dev nD) (i : grid0.Coords) (a2 : Memref sig .tc .vmem S64x512 .f32) (h2 : a2.IsWhole)
    (a3 : Memref sig .tc .vmem S512x1024 .i32) (h3 : a3.IsWhole) (a4 : Memref sig .tc .vmem S16x1024 .f32) (h4 : a4.IsWhole)
    (a5 : Memref sig .tc .vmem S16x1024 .f32) (h5 : a5.IsWhole) (a6 : Memref sig .tc .vmem S1x1024 .f32) (h6 : a6.IsWhole)
    (a7 : Memref sig .tc .vmem S64x1024 .f32) (h7 : a7.IsWhole) (a8 : Memref sig .tc .vmem S64x1024 .f32) (h8 : a8.IsWhole)
    (hc0 : ¬cond0_0 i) (hc1 : cond0_1 i)
    (x0 : Vec F S64x512 .f32) (x1 : Vec F S512x1024 .i32) (x2 : Vec F S16x1024 .f32) (x3 : Vec F S16x1024 .f32) (x4 : Vec F S1x1024 .f32) (xs0 : Vec F S64x1024 .f32) :
    out0_C_5 c i a2 h2 a3 h3 a4 h4 a5 h5 a6 h6 a7 h7 a8 h8 hc0 hc1 x0 x1 x2 x3 x4 xs0 = k0_pay3 (k0_pay2 x1 x2 x3 x0 xs0) x4 := by
  unfold out0_C_5
  rw [View.read_writes_eq_canon _ _ _ (cover0_C_5 c i a2 h2 a3 h3 a4 h4 a5 h5 a6 h6 a7 h7 a8 h8 hc0 hc1 x0 x1 x2 x3 x4 xs0)]
  unfold kernelRun0_C
  dsimp only
  sl_unfold_words
  rw [View.canon_unit_zero origin2]
  simp only [View.readAt_eq_ld, View.readCov_unit_zero (S := S64x1024) _ origin2, h2.read_unread, h3.read_unread,
    h4.read_unread, h5.read_unread, h6.read_unread, h8.read_unread,
    View.ld_unit_zero (S := S64x512) origin2, View.ld_unit_zero (S := S512x1024) origin2,
    View.ld_unit_zero (S := S16x1024) origin2, View.ld_unit_zero (S := S64x1024) origin2,
    View.ld_unit_zero (S := S1x1024) origin2]

end Cert.KernelIdeal.Cases

end
-- ==== Proof.TileSum.lean ====
/-
  Block-quantized linear layer, the mathematics only.

  The weight is stored as integers `w[K, n]` with one scale and one zero point per group of 32 consecutive
  rows: the dequantized entry is `scale[K / 32, n] · (w[K, n] − zero[K / 32, n])`, and the layer computes
  `out[p, n] = Σ_K x[p, K] · deq[K, n] + bias[n]` over the extended reals.

  A sum over the 8192 rows is the sum, over the 16 row tiles of 512, of the tile sums; so the result restricted
  to a column tile of 1024 is the sum of 16 tile products plus the bias. Only commutativity and associativity of
  the extended reals' addition are used: nothing here needs the entries to be finite.
-/
import Idealize.ShloMosaic.PureOps.Ideal
import Idealize.ShloMosaic.PureOps.Ideal.Laws
import Idealize.ShloMosaic.Lib.ValueIdx
import Mathlib.Algebra.BigOperators.Fin
import Mathlib.Data.Fintype.BigOperators

noncomputable section

open Idealize.ShloMosaic Idealize.ShloMosaic.ValueIdx

namespace Cert.QuantLinear

/-- A sum over `a · b` consecutive indices is the sum over `a` runs of the sums over each run's `b` indices. -/
theorem sum_runs {β : Type*} [AddCommMonoid β] (a b : ℕ) (f : Fin (a * b) → β) :
    ∑ K : Fin (a * b), f K = ∑ s : Fin a, ∑ j : Fin b, f (finProdFinEquiv (s, j)) := by
  rw [← finProdFinEquiv.sum_comp, Fintype.sum_prod_type]

/-- The activations `[64, 8192]`, the per-group scales and zero points `[256, 8192]`, the bias `[8192]`, the integer
    weight `[8192, 8192]`, and one `[64, 1024]` column tile of the result. -/
abbrev SAct : Shape := ⟨2, ![64, 8192]⟩
abbrev SGrp : Shape := ⟨2, ![256, 8192]⟩
abbrev SBias : Shape := ⟨1, ![8192]⟩
abbrev SWt : Shape := ⟨2, ![8192, 8192]⟩
abbrev STile : Shape := ⟨2, ![64, 1024]⟩

/-- The quantization group of weight row `K`: 32 consecutive rows share a scale and a zero point. -/
def grp (K : Fin 8192) : Fin 256 := ⟨K.val / 32, by have := K.isLt; omega⟩

/-- Row `j` of row tile `s` (tiles of 512 rows). -/
def rowOf (s : Fin 16) (j : Fin 512) : Fin 8192 := ⟨512 * s.val + j.val, by have := s.isLt; have := j.isLt; omega⟩

/-- Column `q` of column tile `r` (tiles of 1024 columns). -/
def colOf (r : Fin 8) (q : Fin 1024) : Fin 8192 := ⟨1024 * r.val + q.val, by have := r.isLt; have := q.isLt; omega⟩

/-- The dequantized weight entry: `scale · (w − zero)`, the integer read as the real it denotes. -/
def deq (sc zp : SGrp.Idx → EReal) (w : SWt.Idx → BitVec 32) (K n : Fin 8192) : EReal :=
  sc (ix2 (grp K) n) * ((FloatOps.sitofp (F := Ideal) .f32 (w (ix2 K n)) : EReal) - zp (ix2 (grp K) n))

/-- The layer's result: `x · deq + bias`. -/
def result (x : SAct.Idx → EReal) (sc zp : SGrp.Idx → EReal) (b : SBias.Idx → EReal) (w : SWt.Idx → BitVec 32) :
    SAct.Idx → EReal := fun i =>
  (∑ K : Fin 8192, x (ix2 (i 0) K) * deq sc zp w K (i 1)) + b (ix1 (i 1))

/-- The product of `x`'s column block `s` with the dequantized weight's block `(s, r)`: one `[64, 1024]` tile. -/
def tileProd (x : SAct.Idx → EReal) (sc zp : SGrp.Idx → EReal) (w : SWt.Idx → BitVec 32) (s : Fin 16) (r : Fin 8) :
    STile.Idx → EReal := fun i =>
  ∑ j : Fin 512, x (ix2 (i 0) (rowOf s j)) * deq sc zp w (rowOf s j) (colOf r (i 1))

/-- The result on column tile `r` is the sum of the 16 tile products of that column tile, plus the bias. -/
theorem result_tile (x : SAct.Idx → EReal) (sc zp : SGrp.Idx → EReal) (b : SBias.Idx → EReal) (w : SWt.Idx → BitVec 32)
    (r : Fin 8) (p : Fin 64) (q : Fin 1024) :
    result x sc zp b w (ix2 p (colOf r q))
      = (∑ s : Fin 16, tileProd x sc zp w s r (ix2 p q)) + b (ix1 (colOf r q)) := by
  unfold result tileProd
  congr 1
  have h := sum_runs (β := EReal) 16 512 (fun K : Fin 8192 => x (ix2 p K) * deq sc zp w K (colOf r q))
  refine h.trans (Finset.sum_congr rfl fun s _ => Finset.sum_congr rfl fun j _ => ?_)
  have e : (finProdFinEquiv (s, j) : Fin 8192) = rowOf s j := Fin.ext (by
    show j.val + 512 * s.val = 512 * s.val + j.val
    omega)
  rw [e]

end Cert.QuantLinear

end
-- ==== Proof.Payload.lean ====
/-
  The body's arithmetic, read at an index over the extended reals.

  One accumulation step adds to the accumulator entry `(p, q)` the inner product of row `p` of the activation block with
  column `q` of the dequantized weight block: `Σ_j x[p, j] · (scale[j / 32, q] · (w[j, q] − zero[j / 32, q]))`. The scale and
  zero-point blocks have one row per group of 32 weight rows; the body expands them by inserting a unit axis,
  broadcasting it to 32 and merging it with the group axis, so expanded row `j` is group row `j / 32`. Rounding the
  operands to bf16 is the identity here, and the matrix unit started from a zero accumulator is the plain sum.
  The last step of a column tile adds the bias row to every row of the accumulator.
-/
import proofs.«149741_j47296179864030_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.TcCoe Idealize.ShloMosaic.ValueIdx Idealize.SL.Sem

namespace Cert.KernelIdeal.Tile

open Cert.KernelIdeal Cert.KernelIdeal.Gen

/-- The group row of block row `j`: 32 consecutive weight rows share one row of the scale and zero-point blocks. -/
def sub (j : Fin 512) : Fin 16 := ⟨j.val / 32, by have := j.isLt; omega⟩

/-- The expansion of a `[16, 1024]` block to `[512, 1024]` reads, at row `j`, the block's row `j / 32`. -/
theorem expand_apply {α : Type} (v : S16x1024.Idx → α) (j : Fin 512) (q : Fin 1024) :
    shapeCast S512x1024 (broadcastTo S16x32x1024 (shapeCast S16x1x1024 (shapeCast S16x1x1024 v shapeCasts_S16x1024_S16x1x1024)
      shapeCasts_S16x1x1024_S16x1x1024) broadcasts_S16x1x1024_S16x32x1024) shapeCasts_S16x32x1024_S512x1024 (ix2 j q)
      = v (ix2 (sub j) q) := by
  have hj := j.isLt
  have hq := q.isLt
  rw [shapeCast_self]
  refine (shapeCast_apply _ shapeCasts_S16x32x1024_S512x1024 (ix2 j q)
    (ix3 (sub j) (⟨j.val % 32, Nat.mod_lt _ (by decide)⟩ : Fin 32) q) ?_).trans ?_
  · rw [Shape.rowMajor_val_three, Shape.rowMajor_val_two]
    show (j.val / 32 * 32 + j.val % 32) * 1024 + q.val = j.val * 1024 + q.val
    omega
  refine (broadcastTo_apply _ broadcasts_S16x1x1024_S16x32x1024 _ (ix3 (sub j) (0 : Fin 1) q) (fun a => ?_)).trans ?_
  · match a with
    | ⟨0, _⟩ => rfl
    | ⟨1, _⟩ => rfl
    | ⟨2, _⟩ => rfl
  refine shapeCast_apply v shapeCasts_S16x1024_S16x1x1024 _ (ix2 (sub j) q) ?_
  rw [Shape.rowMajor_val_two, Shape.rowMajor_val_three]
  show j.val / 32 * 1024 + q.val = (j.val / 32 * 1 + 0) * 1024 + q.val
  omega

/-- The contraction of the block product runs over the 512 block rows: the left operand is read at `(p, j)`, -/
theorem lhs_row (i : S64x1024.Idx) (k : dot_S64x512_S512x1024_S64x1024_1_0_0_1_n_n.contr.Idx) :
    (dot_S64x512_S512x1024_S64x1024_1_0_0_1_n_n.lhsIdx i k 0).val = (i 0).val := by
  unfold DotDims.lhsIdx
  rw [dif_neg (show ¬(0 : Fin S64x512.rank) ∈ dot_S64x512_S512x1024_S64x1024_1_0_0_1_n_n.lhsBatch by decide),
    dif_pos (show (0 : Fin S64x512.rank) ∈ dot_S64x512_S512x1024_S64x1024_1_0_0_1_n_n.lhsNonContracting by decide)]
  rfl
theorem lhs_col (i : S64x1024.Idx) (k : dot_S64x512_S512x1024_S64x1024_1_0_0_1_n_n.contr.Idx) :
    (dot_S64x512_S512x1024_S64x1024_1_0_0_1_n_n.lhsIdx i k 1).val = (k ⟨0, by decide⟩).val :=
  dot_S64x512_S512x1024_S64x1024_1_0_0_1_n_n.lhsIdx_val_of_single rfl i k
/-- and the right operand at `(j, q)`. -/
theorem rhs_row (i : S64x1024.Idx) (k : dot_S64x512_S512x1024_S64x1024_1_0_0_1_n_n.contr.Idx) :
    (dot_S64x512_S512x1024_S64x1024_1_0_0_1_n_n.rhsIdx i k 0).val = (k ⟨0, by decide⟩).val :=
  dot_S64x512_S512x1024_S64x1024_1_0_0_1_n_n.rhsIdx_val_of_single rfl i k
theorem rhs_col (i : S64x1024.Idx) (k : dot_S64x512_S512x1024_S64x1024_1_0_0_1_n_n.contr.Idx) :
    (dot_S64x512_S512x1024_S64x1024_1_0_0_1_n_n.rhsIdx i k 1).val = (i 1).val := by
  unfold DotDims.rhsIdx
  rw [dif_neg (show ¬(1 : Fin S512x1024.rank) ∈ dot_S64x512_S512x1024_S64x1024_1_0_0_1_n_n.rhsBatch by decide),
    dif_pos (show (1 : Fin S512x1024.rank) ∈ dot_S64x512_S512x1024_S64x1024_1_0_0_1_n_n.rhsNonContracting by decide)]
  rfl

/-- The block product from a zero accumulator is the inner product of a row of the left block with a column of the right. -/
theorem blockProduct_apply (l : FVec Ideal S64x512 .bf16) (r : FVec Ideal S512x1024 .bf16) (p : Fin 64) (q : Fin 1024) :
    matmul (F := Ideal) dot_S64x512_S512x1024_S64x1024_1_0_0_1_n_n none l r (constant S64x1024 .f32 0x00000000#32) (ix2 p q)
      = ∑ j : Fin 512, l (ix2 p j) * r (ix2 j q) := by
  show FloatOps.matmul _ _ _ _ _ _ = _
  rw [Ideal.matmul_constant_zero_apply,
    ← Equiv.sum_comp (contrEquiv1 dot_S64x512_S512x1024_S64x1024_1_0_0_1_n_n 512 rfl rfl).symm]
  refine Finset.sum_congr rfl fun j _ => ?_
  have hk := contrEquiv1_symm_val dot_S64x512_S512x1024_S64x1024_1_0_0_1_n_n 512 rfl rfl j
  have el : dot_S64x512_S512x1024_S64x1024_1_0_0_1_n_n.lhsIdx (ix2 p q)
      ((contrEquiv1 dot_S64x512_S512x1024_S64x1024_1_0_0_1_n_n 512 rfl rfl).symm j) = ix2 p j := funext fun a => Fin.ext (by
    match a with
    | ⟨0, _⟩ => exact lhs_row _ _
    | ⟨1, _⟩ => exact (lhs_col _ _).trans hk)
  have er : dot_S64x512_S512x1024_S64x1024_1_0_0_1_n_n.rhsIdx (ix2 p q)
      ((contrEquiv1 dot_S64x512_S512x1024_S64x1024_1_0_0_1_n_n 512 rfl rfl).symm j) = ix2 j q := funext fun a => Fin.ext (by
    match a with
    | ⟨0, _⟩ => exact (rhs_row _ _).trans hk
    | ⟨1, _⟩ => exact rhs_col _ _)
  rw [el, er]

/-- One accumulation step at entry `(p, q)`: the accumulator entry plus the inner product with the dequantized block. -/
theorem step_apply (wb : Vec Ideal S512x1024 .i32) (sb zb : Vec Ideal S16x1024 .f32) (xb : Vec Ideal S64x512 .f32)
    (acc : Vec Ideal S64x1024 .f32) (p : Fin 64) (q : Fin 1024) :
    k0_pay2 (F := Ideal) wb sb zb xb acc (ix2 p q)
      = acc (ix2 p q) + ∑ j : Fin 512, xb (ix2 p j)
          * (sb (ix2 (sub j) q) * ((FloatOps.sitofp (F := Ideal) .f32 (wb (ix2 j q)) : EReal) - zb (ix2 (sub j) q))) := by
  unfold k0_pay2
  rw [shapeCast_self]
  show acc (ix2 p q) + _ = _
  rw [blockProduct_apply]
  refine congrArg (acc (ix2 p q) + ·) (Finset.sum_congr rfl fun j _ => ?_)
  show xb (ix2 p j) * (_ * (_ - _)) = _
  rw [expand_apply, expand_apply]
  rfl

/-- The zero accumulator. -/
theorem zero_apply (i : S64x1024.Idx) : k0_pay1 (F := Ideal) i = 0 := by
  unfold k0_pay1
  rw [shapeCast_self]
  show Ideal.ofBits .f32 0x00000000#32 = 0
  exact Ideal.ofBits_zero_f32

/-- The output block: the accumulator plus the bias row, on every row. -/
theorem finish_apply (acc : Vec Ideal S64x1024 .f32) (bb : Vec Ideal S1x1024 .f32) (p : Fin 64) (q : Fin 1024) :
    k0_pay3 (F := Ideal) acc bb (ix2 p q) = acc (ix2 p q) + bb (ix2 (0 : Fin 1) q) := by
  unfold k0_pay3
  rw [shapeCast_self]
  show acc (ix2 p q) + broadcastTo S64x1024 bb broadcasts_S1x1024_S64x1024 (ix2 p q) = _
  rw [broadcastTo_1b_ab_apply]

end Cert.KernelIdeal.Tile

end
-- ==== Proof.Blocks.lean ====
/-
  The blocks a grid point sees, and one accumulation step in terms of the arrays.

  The grid is (column tile, row tile) with the row tile innermost: point `t` works on row tile `t % 16` and column tile
  `t / 16`. There the activation block is columns `512·(t % 16) …` of `x`, the weight block is rows `512·(t % 16) …` and
  columns `1024·(t / 16) …` of `w`, the scale and zero-point blocks are the 16 group rows `16·(t % 16) …` of those
  columns, and the bias block is those columns of the bias row. So the step at point `t` adds to the accumulator the
  tile product of row tile `t % 16` and column tile `t / 16`.
-/
import proofs.«149741_j47296179864030_1_alg».proof.Proof.Gen.KernelIdeal.Frame
import proofs.«149741_j47296179864030_1_alg».proof.Proof.TileSum
import proofs.«149741_j47296179864030_1_alg».proof.Proof.Payload

noncomputable section

open Idealize.ShloMosaic Idealize.ShloMosaic.TcCoe Idealize.ShloMosaic.ValueIdx Idealize.SL.Sem

namespace Cert.KernelIdeal.Blocks

open Cert.KernelIdeal Cert.KernelIdeal.Gen Cert.KernelIdeal.Tile Cert.QuantLinear

variable (m : (ℓ : Loc nD τ sig) → Buf (Elt Ideal) ℓ)

/-- The argument arrays as launched. -/
abbrev actA (c : Dev nD) : FVec Ideal S64x8192 .f32 := m ((c : Thread nD τ).loc main_arg0)
abbrev sclA (c : Dev nD) : FVec Ideal S256x8192 .f32 := m ((c : Thread nD τ).loc main_arg1)
abbrev zptA (c : Dev nD) : FVec Ideal S256x8192 .f32 := m ((c : Thread nD τ).loc main_arg2)
abbrev biasA (c : Dev nD) : FVec Ideal S8192 .f32 := m ((c : Thread nD τ).loc main_arg3)
abbrev wgtA (c : Dev nD) : Vec Ideal S8192x8192 .i32 := m ((c : Thread nD τ).loc main_arg4)

/-- The blocks of point `t`. -/
abbrev actB (c : Dev nD) (t : Fin cfg0.N) : Vec Ideal S64x512 .f32 := iblk m c 0 t
abbrev wgtB (c : Dev nD) (t : Fin cfg0.N) : Vec Ideal S512x1024 .i32 := iblk m c 1 t
abbrev sclB (c : Dev nD) (t : Fin cfg0.N) : Vec Ideal S16x1024 .f32 := iblk m c 2 t
abbrev zptB (c : Dev nD) (t : Fin cfg0.N) : Vec Ideal S16x1024 .f32 := iblk m c 3 t
abbrev biasB (c : Dev nD) (t : Fin cfg0.N) : Vec Ideal S1x1024 .f32 := iblk m c 4 t

/-- The row tile and the column tile of point `n`. -/
def rtile (n : ℕ) : Fin 16 := ⟨n % 16, Nat.mod_lt _ (by decide)⟩
def ctile (n : ℕ) : Fin 8 := ⟨n / 16 % 8, Nat.mod_lt _ (by decide)⟩

/-- The block indices of every window at every point, decided once over the grid. -/
theorem idx_facts : ∀ t : Fin cfg0.N,
    win0_0.index t (0 : Fin 2) = 0 ∧ win0_0.index t (1 : Fin 2) = t.val % 16
    ∧ win0_1.index t (0 : Fin 2) = t.val % 16 ∧ win0_1.index t (1 : Fin 2) = t.val / 16 % 8
    ∧ win0_2.index t (0 : Fin 2) = t.val % 16 ∧ win0_2.index t (1 : Fin 2) = t.val / 16 % 8
    ∧ win0_3.index t (0 : Fin 2) = t.val % 16 ∧ win0_3.index t (1 : Fin 2) = t.val / 16 % 8
    ∧ win0_4.index t (0 : Fin 2) = 0 ∧ win0_4.index t (1 : Fin 2) = t.val / 16 % 8
    ∧ win0_5.index t (0 : Fin 2) = 0 ∧ win0_5.index t (1 : Fin 2) = t.val / 16 % 8 :=
  (by decide +kernel : ∀ t : Fin grid0.N, _)

/-- The activation block is `x[:, 512·(t % 16) …]`. -/
theorem actB_apply (c : Dev nD) (t : Fin cfg0.N) (p : Fin 64) (j : Fin 512) :
    actB m c t (ix2 p j) = actA m c (ix2 p (rowOf (rtile t.val) j)) := by
  obtain ⟨e0, e1, -⟩ := idx_facts t
  show V m c main_arg0 (((cfg0.win 0).blk t).view.emb (ix2 p j)) = _
  rw [V_main_arg0]
  refine congrArg _ (funext fun a => Fin.ext ?_)
  match a with
  | ⟨0, _⟩ => show win0_0.index t (0 : Fin 2) * 64 + 1 * p.val = p.val; omega
  | ⟨1, _⟩ => show win0_0.index t (1 : Fin 2) * 512 + 1 * j.val = 512 * (t.val % 16) + j.val; omega

/-- The weight block is `w[512·(t % 16) …, 1024·(t / 16) …]`. -/
theorem wgtB_apply (c : Dev nD) (t : Fin cfg0.N) (j : Fin 512) (q : Fin 1024) :
    wgtB m c t (ix2 j q) = wgtA m c (ix2 (rowOf (rtile t.val) j) (colOf (ctile t.val) q)) := by
  obtain ⟨-, -, e0, e1, -⟩ := idx_facts t
  show V m c main_arg4 (((cfg0.win 1).blk t).view.emb (ix2 j q)) = _
  rw [V_main_arg4]
  refine congrArg _ (funext fun a => Fin.ext ?_)
  match a with
  | ⟨0, _⟩ => show win0_1.index t (0 : Fin 2) * 512 + 1 * j.val = 512 * (t.val % 16) + j.val; omega
  | ⟨1, _⟩ => show win0_1.index t (1 : Fin 2) * 1024 + 1 * q.val = 1024 * (t.val / 16 % 8) + q.val; omega

/-- The scale block's row for block row `j` is the scale row of weight row `512·(t % 16) + j`'s group. -/
theorem sclB_apply (c : Dev nD) (t : Fin cfg0.N) (j : Fin 512) (q : Fin 1024) :
    sclB m c t (ix2 (sub j) q) = sclA m c (ix2 (grp (rowOf (rtile t.val) j)) (colOf (ctile t.val) q)) := by
  obtain ⟨-, -, -, -, e0, e1, -⟩ := idx_facts t
  have hj := j.isLt
  show V m c main_arg1 (((cfg0.win 2).blk t).view.emb (ix2 (sub j) q)) = _
  rw [V_main_arg1]
  refine congrArg _ (funext fun a => Fin.ext ?_)
  match a with
  | ⟨0, _⟩ => show win0_2.index t (0 : Fin 2) * 16 + 1 * (j.val / 32) = (512 * (t.val % 16) + j.val) / 32; omega
  | ⟨1, _⟩ => show win0_2.index t (1 : Fin 2) * 1024 + 1 * q.val = 1024 * (t.val / 16 % 8) + q.val; omega

/-- The same for the zero points. -/
theorem zptB_apply (c : Dev nD) (t : Fin cfg0.N) (j : Fin 512) (q : Fin 1024) :
    zptB m c t (ix2 (sub j) q) = zptA m c (ix2 (grp (rowOf (rtile t.val) j)) (colOf (ctile t.val) q)) := by
  obtain ⟨-, -, -, -, -, -, e0, e1, -⟩ := idx_facts t
  have hj := j.isLt
  show V m c main_arg2 (((cfg0.win 3).blk t).view.emb (ix2 (sub j) q)) = _
  rw [V_main_arg2]
  refine congrArg _ (funext fun a => Fin.ext ?_)
  match a with
  | ⟨0, _⟩ => show win0_3.index t (0 : Fin 2) * 16 + 1 * (j.val / 32) = (512 * (t.val % 16) + j.val) / 32; omega
  | ⟨1, _⟩ => show win0_3.index t (1 : Fin 2) * 1024 + 1 * q.val = 1024 * (t.val / 16 % 8) + q.val; omega

/-- The tile product a point adds: row tile `n % 16`, column tile `n / 16`, of the arrays as launched. -/
def addend (c : Dev nD) (n : ℕ) : S64x1024.Idx → EReal :=
  tileProd (actA m c) (sclA m c) (zptA m c) (wgtA m c) (rtile n) (ctile n)

/-- One accumulation step at point `t`, at entry `(p, q)`: the accumulator entry plus the point's tile product there. -/
theorem step_at (c : Dev nD) (t : Fin cfg0.N) (acc : Vec Ideal S64x1024 .f32) (p : Fin 64) (q : Fin 1024) :
    k0_pay2 (F := Ideal) (wgtB m c t) (sclB m c t) (zptB m c t) (actB m c t) acc (ix2 p q)
      = acc (ix2 p q) + addend m c t.val (ix2 p q) := by
  refine (step_apply (wgtB m c t) (sclB m c t) (zptB m c t) (actB m c t) acc p q).trans ?_
  refine congrArg (acc (ix2 p q) + ·) ?_
  unfold addend tileProd deq
  refine Finset.sum_congr rfl fun j _ => ?_
  rw [actB_apply, wgtB_apply, sclB_apply, zptB_apply]

end Cert.KernelIdeal.Blocks

end
-- ==== Proof.Fold.lean ====
/-
  The accumulator after any point, and what the last row tile writes back.

  Within a column tile the accumulator starts at zero and each of the 16 points adds its tile product, so after the
  point of row tile `k` it holds `0 + Σ_{s ≤ k}` of the tile products of row tiles `0 … k`. At the last row tile the
  output block receives that sum plus the bias, which is the specification on the column tile: the sum over all 8192
  weight rows cut into its 16 row tiles. The 8 column tiles cover the result array, each written back once.
-/
import proofs.«149741_j47296179864030_1_alg».proof.Proof.Gen.KernelIdeal.Value
import proofs.«149741_j47296179864030_1_alg».proof.Proof.Cases
import proofs.«149741_j47296179864030_1_alg».proof.Proof.Blocks
import Idealize.ShloMosaic.Lib.Pipeline.Value
import Idealize.ShloMosaic.Lib.ValueLayout
import Idealize.ShloMosaic.Lib.StableHlo.Run

noncomputable section

open Idealize.ShloMosaic Idealize.ShloMosaic.TcCoe Idealize.ShloMosaic.ValueIdx Idealize.SL.Sem
open Idealize.ShloMosaic.Pipeline (Dat)

namespace Cert.KernelIdeal.Whole

open Cert.KernelIdeal Cert.KernelIdeal.Gen Cert.KernelIdeal.Cases Cert.KernelIdeal.Tile Cert.KernelIdeal.Blocks Cert.QuantLinear

variable (m : (ℓ : Loc nD τ sig) → Buf (Elt Ideal) ℓ) (ρ : Dev nD → PrngReg)

/-- At the first row tile of a column tile the point leaves `0 + ` its tile product, whatever the accumulator held. -/
theorem left_first (c : Dev nD) (n : ℕ) (hb : n < cfg0.N) (h0 : n % 16 = 0) (acc : Vec Ideal S64x1024 .f32) :
    Value.scAt0_0 m c n hb acc
      = k0_pay2 (F := Ideal) (wgtB m c ⟨n, hb⟩) (sclB m c ⟨n, hb⟩) (zptB m c ⟨n, hb⟩) (actB m c ⟨n, hb⟩) (k0_pay1 (F := Ideal)) := by
  unfold Value.scAt0_0
  rw [dif_pos h0, dif_neg (by omega)]
  exact acc_first (F := Ideal) c _ _ _ _ _ _ _ _ _ _ _ _ _ _ _ _ _ _ _ _ _ _

/-- At every other row tile it leaves the accumulator plus its tile product. -/
theorem left_later (c : Dev nD) (n : ℕ) (hb : n < cfg0.N) (h0 : ¬n % 16 = 0) (acc : Vec Ideal S64x1024 .f32) :
    Value.scAt0_0 m c n hb acc
      = k0_pay2 (F := Ideal) (wgtB m c ⟨n, hb⟩) (sclB m c ⟨n, hb⟩) (zptB m c ⟨n, hb⟩) (actB m c ⟨n, hb⟩) acc := by
  unfold Value.scAt0_0
  rw [dif_neg h0]
  by_cases h1 : n % 16 = 15
  · rw [dif_pos h1]
    exact acc_last (F := Ideal) c _ _ _ _ _ _ _ _ _ _ _ _ _ _ _ _ _ _ _ _ _ _ _
  · rw [dif_neg h1]
    exact acc_middle (F := Ideal) c _ _ _ _ _ _ _ _ _ _ _ _ _ _ _ _ _ _ _ _ _ _ _

/-- THE ACCUMULATOR after point `t`: zero plus the tile products of the row tiles `0 … t % 16` of `t`'s column tile. -/
theorem acc_after (c : Dev nD) (t : Fin cfg0.N) (p : Fin 64) (q : Fin 1024) :
    (outsAt0 m c t.val t.isLt).2 (ix2 p q)
      = 0 + ∑ s ∈ Finset.range (t.val % 16 + 1), addend m c (16 * (t.val / 16) + s) (ix2 p q) := by
  rw [Value.soutsAt0_0_eq m c t]
  exact Pipeline.accAt_add_apply (ι := S64x1024.Idx) (β := EReal) _ _ (fun _ => 0) (addend m c) (16 * (t.val / 16)) 15
    (fun h i => by
      obtain ⟨p, q, rfl⟩ : ∃ (p : Fin 64) (q : Fin 1024), i = ix2 p q := ⟨i 0, i 1, eq_ix2 i⟩
      rw [left_first m c _ h (by omega)]
      refine (step_at m c ⟨_, h⟩ _ p q).trans ?_
      rw [zero_apply])
    (fun n h acc i hlo hhi => by
      obtain ⟨p, q, rfl⟩ : ∃ (p : Fin 64) (q : Fin 1024), i = ix2 p q := ⟨i 0, i 1, eq_ix2 i⟩
      rw [left_later m c n h (by omega) acc]
      exact step_at m c ⟨n, h⟩ acc p q)
    (t.val % 16) (by omega) _ (ix2 p q)

/-- The bias row as the region finds it: the `[8192]` argument viewed as `[1, 8192]`. -/
theorem biasRow_eq (c : Dev nD) :
    (V m c main_v0 : S1x8192.Idx → EReal) = shapeCast S1x8192 (biasA m c) shapeCasts_S8192_S1x8192 := by
  dsimp only [V, hostOps0]
  after_results
  rfl

/-- The bias block is columns `1024·(t / 16) …` of the bias. -/
theorem biasB_apply (c : Dev nD) (t : Fin cfg0.N) (q : Fin 1024) :
    biasB m c t (ix2 (0 : Fin 1) q) = biasA m c (ix1 (colOf (ctile t.val) q)) := by
  obtain ⟨-, -, -, -, -, -, -, -, e0, e1, -⟩ := idx_facts t
  show V m c main_v0 (((cfg0.win 4).blk t).view.emb (ix2 (0 : Fin 1) q)) = _
  rw [biasRow_eq]
  have e : ((cfg0.win 4).blk t).view.emb (ix2 (0 : Fin 1) q) = ix2 (0 : Fin 1) (colOf (ctile t.val) q) :=
    funext fun a => Fin.ext (by
      match a with
      | ⟨0, _⟩ => show win0_4.index t (0 : Fin 2) * 1 + 1 * 0 = 0; omega
      | ⟨1, _⟩ => show win0_4.index t (1 : Fin 2) * 1024 + 1 * q.val = 1024 * (t.val / 16 % 8) + q.val; omega)
  rw [e]
  exact shapeCast_a_1a_apply _ _ _ _

/-- The array the kernel should leave in its result: the specification of the arguments as launched. -/
abbrev resultA (c : Dev nD) : Buf (Elt Ideal) ((c : Thread nD τ).loc main_v1) :=
  result (actA m c) (sclA m c) (zptA m c) (biasA m c) (wgtA m c)

/-- At the last row tile the accumulator the point leaves is one more step over what the point before left. -/
theorem acc_at_last (c : Dev nD) (t : Fin cfg0.N) (h0 : ¬t.val % 16 = 0) (h15 : t.val % 16 = 15) :
    (outsAt0 m c t.val t.isLt).2
      = k0_pay2 (F := Ideal) (iblk m c 1 t) (iblk m c 2 t) (iblk m c 3 t) (iblk m c 0 t)
          (outsAt0 m c (t.val - 1) (Nat.lt_of_le_of_lt (Nat.sub_le _ _) t.isLt)).2 := by
  rw [outsAt0_C m c t h0 h15]
  dsimp only
  exact acc_last (F := Ideal) c _ _ _ _ _ _ _ _ _ _ _ _ _ _ _ _ _ _ _ _ _ _ _

/-- An entry `(p, q)` of the output block of point `t` sits in the array at row `p`, column `1024·(t / 16) + q`. -/
theorem out_emb (t : Fin cfg0.N) (p : Fin 64) (q : Fin 1024) :
    ((cfg0.win 5).blk t).view.emb (ix2 p q) = ix2 p (colOf (ctile t.val) q) := by
  obtain ⟨-, -, -, -, -, -, -, -, -, -, e0, e1⟩ := idx_facts t
  refine funext fun a => Fin.ext ?_
  match a with
  | ⟨0, _⟩ => show win0_5.index t (0 : Fin 2) * 64 + 1 * p.val = p.val; omega
  | ⟨1, _⟩ => show win0_5.index t (1 : Fin 2) * 1024 + 1 * q.val = 1024 * (t.val / 16 % 8) + q.val; omega

/-- WHAT THE LAST ROW TILE WRITES BACK is its column tile of the specification: the 16 tile products of the column
    tile, summed from zero, plus the bias, which is the sum over all the weight rows plus the bias. -/
theorem flushed_eq (c : Dev nD) (t : Fin cfg0.N) (hf : (cfg0.win 5).flush t = true) :
    (dats m 0 c).flushed 5 t = ((cfg0.win 5).blk t).view.read (Elt Ideal) (resultA m c) := by
  have h15 : t.val % 16 = 15 := (flush0_5 t).mp hf
  have h0 : ¬t.val % 16 = 0 := by omega
  have hN : t.val < 128 := lt_of_lt_of_eq t.isLt (show cfg0.N = 128 from N_0)
  rw [Value.flushed5_C m c t h0 h15, out_last (F := Ideal) c _ _ _ _ _ _ _ _ _ _ _ _ _ _ _ _ _ _ _ _ _ _ _, ← acc_at_last m c t h0 h15]
  funext y
  obtain ⟨p, q, rfl⟩ : ∃ (p : Fin 64) (q : Fin 1024), y = ix2 p q := ⟨y 0, y 1, eq_ix2 y⟩
  show k0_pay3 (F := Ideal) (outsAt0 m c t.val t.isLt).2 (biasB m c t) (ix2 p q)
      = resultA m c (((cfg0.win 5).blk t).view.emb (ix2 p q))
  rw [out_emb, finish_apply, acc_after, biasB_apply, zero_add]
  show _ = result (actA m c) (sclA m c) (zptA m c) (biasA m c) (wgtA m c) (ix2 p (colOf (ctile t.val) q))
  rw [result_tile]
  refine congrArg (· + biasA m c (ix1 (colOf (ctile t.val) q))) ?_
  rw [show t.val % 16 + 1 = 16 by omega, Finset.sum_range]
  refine Finset.sum_congr rfl fun s _ => ?_
  have hs := s.isLt
  unfold addend
  have er : rtile (16 * (t.val / 16) + s.val) = s := Fin.ext (by show (16 * (t.val / 16) + s.val) % 16 = s.val; omega)
  have ec : ctile (16 * (t.val / 16) + s.val) = ctile t.val := Fin.ext (by
    show (16 * (t.val / 16) + s.val) / 16 % 8 = t.val / 16 % 8; omega)
  rw [er, ec]

/-- An index of the result array is in point `t`'s block iff each coordinate is in the block's range on its axis. -/
theorem mem_out (t : Fin cfg0.N) (i : S64x8192.Idx) :
    i ∈ ((cfg0.win 5).blk t).view.set
      ↔ ∀ a : Fin 2, win0_5.index t a * S64x1024.size a ≤ (i a).val ∧ (i a).val < win0_5.index t a * S64x1024.size a + S64x1024.size a := by
  show i ∈ ((View.whole main_v1).slice (win0_5.rect t)).set ↔ _
  rw [View.set_slice_whole, Rect.mem_set_unit]
  exact Iff.rfl

/-- Every entry of the result is written back by the last row tile of its column tile. -/
theorem covered (i : S64x8192.Idx) :
    ∃ t : Fin cfg0.N, (cfg0.win 5).flush t = true ∧ i ∈ ((cfg0.win 5).blk t).view.set := by
  have hi0 : (i 0).val < 64 := (i 0).isLt
  have hi1 : (i 1).val < 8192 := (i 1).isLt
  have hN : cfg0.N = 128 := N_0
  let t : Fin cfg0.N := ⟨16 * ((i 1).val / 1024) + 15, by rw [hN]; omega⟩
  obtain ⟨-, -, -, -, -, -, -, -, -, -, e0, e1⟩ := idx_facts t
  have ht : t.val = 16 * ((i 1).val / 1024) + 15 := rfl
  refine ⟨t, (flush0_5 t).mpr (by rw [ht]; omega), ?_⟩
  rw [mem_out]
  intro a
  match a with
  | ⟨0, _⟩ => show win0_5.index t (0 : Fin 2) * 64 ≤ (i 0).val ∧ (i 0).val < win0_5.index t (0 : Fin 2) * 64 + 64; omega
  | ⟨1, _⟩ => show win0_5.index t (1 : Fin 2) * 1024 ≤ (i 1).val ∧ (i 1).val < win0_5.index t (1 : Fin 2) * 1024 + 1024; omega

/-- THE RESULT ARRAY after the run is the specification of the arguments. -/
theorem final (c : Dev nD) : (dats m 0 c).arrAt 5 cfg0.N = resultA m c :=
  (dats m 0 c).arrAt_eq_of_cover 5 (resultA m c) (fun t hf => flushed_eq m c t hf) covered

/-- THE RUN, READ: every weakly fair execution ends with the result array at the specification and the arguments
    unchanged. -/
theorem run : θ_run defs (onTc (τ := τ) (main (F := Ideal))) ⟨m, fun _ => 0, ρ⟩ fun r => ∀ c : Dev nD,
      r.2.mem ((c : Thread nD τ).loc main_v1) = resultA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefSpec.lean ====
/-
  The reference computes the layer's specification.

  The reference expands the per-group scales and zero points to one row per weight row (a broadcast over a new axis
  of 32 followed by a reshape, so row `K` reads group `K / 32`), dequantizes the whole weight, multiplies once, and adds
  the bias row. Read index by index over the extended reals this is `Σ_K x[p, K] · deq[K, n] + bias[n]`.
-/
import proofs.«149741_j47296179864030_1_alg».proof.Proof.Gen.ReferenceIdeal.Read
import proofs.«149741_j47296179864030_1_alg».proof.Proof.TileSum

noncomputable section

open Idealize.ShloMosaic Idealize.ShloMosaic.TcCoe Idealize.ShloMosaic.ValueIdx

namespace Cert.ReferenceIdeal.Spec

open Cert.ReferenceIdeal Cert.ReferenceIdeal.Read Cert.QuantLinear

/-- The left operand of the product is read at `(p, K)`. -/
theorem lhs_at (p : Fin 64) (n K : Fin 8192) : lidx_main_v7 (ix2 p n) K = ix2 p K :=
  funext fun a => Fin.ext (by match a with | ⟨0, _⟩ => rfl | ⟨1, _⟩ => rfl)

/-- The right operand is read at `(K, n)`. -/
theorem rhs_at (p : Fin 64) (n K : Fin 8192) : ridx_main_v7 (ix2 p n) K = ix2 K n :=
  funext fun a => Fin.ext (by match a with | ⟨0, _⟩ => rfl | ⟨1, _⟩ => rfl)

/-- The expanded scale at weight entry `(K, n)` is the group's: row `K / 32`, column `n`. -/
theorem scale_at (K n : Fin 8192) : idx_main_v0 (idx_main_v1 (ix2 K n)) = ix2 (grp K) n :=
  funext fun a => Fin.ext (by
    have hK := K.isLt
    have hn := n.isLt
    match a with
    | ⟨0, _⟩ => show (K.val * 8192 + n.val) / 262144 = K.val / 32; omega
    | ⟨1, _⟩ => show (K.val * 8192 + n.val) % 8192 = n.val; omega)

/-- The same for the expanded zero point. -/
theorem zero_at (K n : Fin 8192) : idx_main_v2 (idx_main_v3 (ix2 K n)) = ix2 (grp K) n :=
  funext fun a => Fin.ext (by
    have hK := K.isLt
    have hn := n.isLt
    match a with
    | ⟨0, _⟩ => show (K.val * 8192 + n.val) / 262144 = K.val / 32; omega
    | ⟨1, _⟩ => show (K.val * 8192 + n.val) % 8192 = n.val; omega)

/-- The bias row broadcast to every output row is read at column `n`. -/
theorem bias_at (p : Fin 64) (n : Fin 8192) : idx_main_v8 (idx_main_v9 (ix2 p n)) = ix1 n :=
  funext fun a => Fin.ext (by match a with | ⟨0, _⟩ => rfl)

/-- The dequantized weight the reference builds, at entry `(K, n)`. -/
theorem weight_at (sc zp : FVec Ideal S256x8192 .f32) (w : Vec Ideal S8192x8192 .i32) (K n : Fin 8192) :
    val_main_v6 (F := Ideal) sc zp w (ix2 K n) = deq sc zp w K n := by
  show val_main_v1 (F := Ideal) sc (ix2 K n)
      * ((FloatOps.sitofp (F := Ideal) .f32 (w (ix2 K n)) : EReal) - val_main_v3 (F := Ideal) zp (ix2 K n)) = _
  rw [val_main_v1_apply, val_main_v0_apply, val_main_v3_apply, val_main_v2_apply, scale_at, zero_at]
  rfl

/-- The reference's result is the specification. -/
theorem reference_is_result (x : FVec Ideal S64x8192 .f32) (sc zp : FVec Ideal S256x8192 .f32) (b : FVec Ideal S8192 .f32)
    (w : Vec Ideal S8192x8192 .i32) :
    val_main_v10 (F := Ideal) x sc zp b w = result x sc zp b w := by
  funext i
  obtain ⟨p, n, rfl⟩ : ∃ (p : Fin 64) (n : Fin 8192), i = ix2 p n := ⟨i 0, i 1, eq_ix2 i⟩
  show val_main_v7 (F := Ideal) x sc zp w (ix2 p n) + val_main_v9 (F := Ideal) b (ix2 p n)
      = (∑ K : Fin 8192, x (ix2 p K) * deq sc zp w K n) + b (ix1 n)
  rw [val_main_v7_apply, val_main_v9_apply, val_main_v8_apply, bias_at]
  refine congrArg (· + b (ix1 n)) (Finset.sum_congr rfl fun K _ => ?_)
  rw [lhs_at, rhs_at, weight_at]

end Cert.ReferenceIdeal.Spec

end
-- ==== Proof.lean ====
/-
  A block-quantized linear layer: the tiled kernel against the whole-array reference.

  The layer is `out[p, n] = Σ_K x[p, K] · (scale[K / 32, n] · (w[K, n] − zero[K / 32, n])) + bias[n]` with `K` over 8192
  integer weight rows, 32 consecutive rows sharing a scale and a zero point. The reference dequantizes the whole weight
  and multiplies once. The kernel tiles the 8192 output columns by 1024 and the 8192 weight rows by 512: for each column
  tile it zeroes an accumulator, adds the product of each of the 16 row tiles, and at the last one writes the
  accumulator plus the bias.

  Over the extended reals the rounding of the operands to bf16 is the identity and both matrix products are plain
  sums, so the kernel's column tile is `((0 + T₀) + T₁) + … + T₁₅ + bias` with `T_s` the sum over row tile `s`, and the
  reference's is the sum over all rows plus the bias. They agree because a sum over 8192 rows is the sum of the sums
  over its 16 runs of 512 — associativity and commutativity of addition only, so no finiteness of the inputs is used —
  and because row `512·s + j` lies in group `16·s + j / 32`, which is where the kernel's expanded scale and zero-point
  blocks read. The 8 column tiles, each written back once, cover the result.

  The three frames are the generated ones (the reference's is its generated run with the result dropped); the
  idealization rewrote nothing, so the kernel's idealized text is the kernel's own.
-/
import proofs.«149741_j47296179864030_1_alg».proof.Defs
import proofs.«149741_j47296179864030_1_alg».proof.Proof.Gen.Kernel
import proofs.«149741_j47296179864030_1_alg».proof.Proof.Gen.Kernel.Skeleton
import proofs.«149741_j47296179864030_1_alg».proof.Proof.Gen.Kernel.Launch
import proofs.«149741_j47296179864030_1_alg».proof.Proof.Gen.Kernel.Points
import proofs.«149741_j47296179864030_1_alg».proof.Proof.Gen.Kernel.Frame
import proofs.«149741_j47296179864030_1_alg».proof.Proof.Gen.KernelIdeal
import proofs.«149741_j47296179864030_1_alg».proof.Proof.Gen.KernelIdeal.Skeleton
import proofs.«149741_j47296179864030_1_alg».proof.Proof.Gen.KernelIdeal.Launch
import proofs.«149741_j47296179864030_1_alg».proof.Proof.Gen.KernelIdeal.Points
import proofs.«149741_j47296179864030_1_alg».proof.Proof.Gen.KernelIdeal.Frame
import proofs.«149741_j47296179864030_1_alg».proof.Proof.Gen.ReferenceIdeal
import proofs.«149741_j47296179864030_1_alg».proof.Proof.Gen.Pre_finite_inputs
import proofs.«149741_j47296179864030_1_alg».proof.Proof.Gen.KernelIdeal.Value
import proofs.«149741_j47296179864030_1_alg».proof.Proof.Gen.ReferenceIdeal.Run
import proofs.«149741_j47296179864030_1_alg».proof.Proof.Gen.ReferenceIdeal.Read
import proofs.«149741_j47296179864030_1_alg».proof.Proof.Fold
import proofs.«149741_j47296179864030_1_alg».proof.Proof.RefSpec
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification of their arguments, and the arguments agree. -/
theorem algebraic : Cert.algebraic_KernelIdeal_ReferenceIdeal := by
  intro m ρ m' ρ' _ hagree
  refine ⟨fun c => Cert.KernelIdeal.Whole.resultA m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.Spec.reference_is_result,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
